-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x512x512 : Shape := ⟨4, ![4, 32, 512, 512]⟩
abbrev S_ : Shape := ⟨0, ![]⟩

class Facts : Prop where
  bcast_S_S4x32x512x512 : S_.BroadcastsInDim S4x32x512x512 (![] : Fin 0 → Fin S4x32x512x512.rank)
  reducesTo_S4x32x512x512_S_d0_1_2_3 : S4x32x512x512.ReducesTo [0, 1, 2, 3] S_
  h_S_ : 0 < S_.numel

variable [Facts]

def fn {F : FTy → Type} [FloatOps F] (main_arg0 : FVec F S4x32x512x512 .f32) (main_arg1 : FVec F S4x32x512x512 .f32) : IVec S_ 1 :=
  let main_v0 : FVec F S4x32x512x512 .f32 := Host.absf main_arg0
  let main_cst : FVec F S_ .f32 := constant S_ .f32 0x7F800000#32
  let main_v1 : FVec F S4x32x512x512 .f32 := broadcastInDim S4x32x512x512 ![] bcast_S_S4x32x512x512 main_cst
  let main_v2 : IVec S4x32x512x512 1 := cmpf .olt main_v0 main_v1
  let main_c : IVec S_ 1 := constantI S_ 1 1#1
  let main_v3 : IVec S_ 1 := (fun x v => Host.reduce IntOp.andi x v reducesTo_S4x32x512x512_S_d0_1_2_3 h_S_) main_v2 main_c
  let main_v4 : FVec F S4x32x512x512 .f32 := Host.absf main_arg1
  let main_cst_0 : FVec F S_ .f32 := constant S_ .f32 0x7F800000#32
  let main_v5 : FVec F S4x32x512x512 .f32 := broadcastInDim S4x32x512x512 ![] bcast_S_S4x32x512x512 main_cst_0
  let main_v6 : IVec S4x32x512x512 1 := cmpf .olt main_v4 main_v5
  let main_c_1 : IVec S_ 1 := constantI S_ 1 1#1
  let main_v7 : IVec S_ 1 := (fun x v => Host.reduce IntOp.andi x v reducesTo_S4x32x512x512_S_d0_1_2_3 h_S_) main_v6 main_c_1
  let main_v8 : IVec S_ 1 := andi main_v3 main_v7
  main_v8
-- ==== Kernel.lean ====
abbrev S4x32x512x512 : Shape := ⟨4, ![4, 32, 512, 512]⟩
abbrev S128x512x512 : Shape := ⟨3, ![128, 512, 512]⟩
abbrev S2x512x512 : Shape := ⟨3, ![2, 512, 512]⟩
abbrev S1x4x32x512x512 : Shape := ⟨5, ![1, 4, 32, 512, 512]⟩
abbrev S2x4x32x512x512 : Shape := ⟨5, ![2, 4, 32, 512, 512]⟩

abbrev nBuf : Space → Nat
  | .hbm => 11
  | .vmem => 8
  | .smem => 0
  | _ => 0

abbrev bufTy : (tb : Table) → Fin (tcTables nBuf tb) → BufTy
  | .hbm, ⟨0, _⟩ => ⟨S4x32x512x512, .f32⟩
  | .hbm, ⟨1, _⟩ => ⟨S4x32x512x512, .f32⟩
  | .hbm, ⟨2, _⟩ => ⟨S128x512x512, .f32⟩
  | .hbm, ⟨3, _⟩ => ⟨S128x512x512, .f32⟩
  | .hbm, ⟨4, _⟩ => ⟨S128x512x512, .f32⟩
  | .hbm, ⟨5, _⟩ => ⟨S128x512x512, .f32⟩
  | .hbm, ⟨6, _⟩ => ⟨S4x32x512x512, .f32⟩
  | .hbm, ⟨7, _⟩ => ⟨S4x32x512x512, .f32⟩
  | .hbm, ⟨8, _⟩ => ⟨S1x4x32x512x512, .f32⟩
  | .hbm, ⟨9, _⟩ => ⟨S1x4x32x512x512, .f32⟩
  | .hbm, ⟨10, _⟩ => ⟨S2x4x32x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x512x512, .f32⟩
  | .local _ .vmem, ⟨5, _⟩ => ⟨S2x512x512, .f32⟩
  | .local _ .vmem, ⟨6, _⟩ => ⟨S2x512x512, .f32⟩
  | .local _ .vmem, ⟨7, _⟩ => ⟨S2x512x512, .f32⟩
  | _, _ => ⟨S4x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x32x512x512_S128x512x512 : S4x32x512x512.ShapeCasts S128x512x512
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  rotates_S2x512x512_d1 : S2x512x512.Rotates 1 none
  iota_S2x512x512_d1_w32 : S2x512x512.Iotas .tc 32 [1]
  rotates_S2x512x512_d2 : S2x512x512.Rotates 2 none
  iota_S2x512x512_d2_w32 : S2x512x512.Iotas .tc 32 [2]
  shapeCasts_S128x512x512_S4x32x512x512 : S128x512x512.ShapeCasts S4x32x512x512
  bcast_S4x32x512x512_S1x4x32x512x512_1_2_3_4 : S4x32x512x512.BroadcastsInDim S1x4x32x512x512 (![1, 2, 3, 4] : Fin 4 → Fin S1x4x32x512x512.rank)
  concatenates_S1x4x32x512x512_S1x4x32x512x512_S2x4x32x512x512_d0 : Shape.Concatenates [S1x4x32x512x512, S1x4x32x512x512] S2x4x32x512x512 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S128x512x512.size a
  hwx0_0 : ∀ i : grid0.Coords, EltTy.bits .f32 = 32 ∨ (Rect.block (s := S128x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S128x512x512.size a
  hwx0_1 : ∀ i : grid0.Coords, EltTy.bits .f32 = 32 ∨ (Rect.block (s := S128x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S128x512x512.size a
  hwx0_2 : ∀ i : grid0.Coords, EltTy.bits .f32 = 32 ∨ (Rect.block (s := S128x512x512) S2x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S128x512x512.size a
  hwx0_3 : ∀ i : grid0.Coords, EltTy.bits .f32 = 32 ∨ (Rect.block (s := S128x512x512) S2x512x512.size (cc0_transform_3 i) (hinb0_3 i)).WholeWords (EltTy.packing .f32)

variable [Facts₀]

abbrev win0_0 : Pipeline.Window sig grid0 :=
  Pipeline.Window.ofSpec (Memref.whole main_v0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x32x512x512 : Shape := ⟨4, ![4, 32, 512, 512]⟩
abbrev S_ : Shape := ⟨0, ![]⟩
abbrev S4x32x513x512 : Shape := ⟨4, ![4, 32, 513, 512]⟩
abbrev S4x32x512x513 : Shape := ⟨4, ![4, 32, 512, 513]⟩
abbrev S4x32x513x513 : Shape := ⟨4, ![4, 32, 513, 513]⟩
abbrev S1x4x32x512x512 : Shape := ⟨5, ![1, 4, 32, 512, 512]⟩
abbrev S2x4x32x512x512 : Shape := ⟨5, ![2, 4, 32, 512, 512]⟩

abbrev nBuf : Space → Nat
  | .hbm => 50
  | .vmem => 0
  | .smem => 0
  | _ => 0

abbrev bufTy : (tb : Table) → Fin (tcTables nBuf tb) → BufTy
  | .hbm, ⟨0, _⟩ => ⟨S4x32x512x512, .f32⟩
  | .hbm, ⟨1, _⟩ => ⟨S4x32x512x512, .f32⟩
  | .hbm, ⟨2, _⟩ => ⟨S_, .f32⟩
  | .hbm, ⟨3, _⟩ => ⟨S_, .f32⟩
  | .hbm, ⟨4, _⟩ => ⟨S4x32x512x512, .f32⟩
  | .hbm, ⟨5, _⟩ => ⟨S_, .f32⟩
  | .hbm, ⟨6, _⟩ => ⟨S_, .f32⟩
  | .hbm, ⟨7, _⟩ => ⟨S4x32x512x512, .f32⟩
  | .hbm, ⟨8, _⟩ => ⟨S4x32x512x512, .f32⟩
  | .hbm, ⟨9, _⟩ => ⟨S_, .f32⟩
  | .hbm, ⟨10, _⟩ => ⟨S_, .f32⟩
  | .hbm, ⟨11, _⟩ => ⟨S4x32x513x512, .f32⟩
  | .hbm, ⟨12, _⟩ => ⟨S4x32x512x512, .f32⟩
  | .hbm, ⟨13, _⟩ => ⟨S4x32x512x512, .f32⟩
  | .hbm, ⟨14, _⟩ => ⟨S_, .f32⟩
  | .hbm, ⟨15, _⟩ => ⟨S_, .f32⟩
  | .hbm, ⟨16, _⟩ => ⟨S4x32x512x513, .f32⟩
  | .hbm, ⟨17, _⟩ => ⟨S4x32x512x512, .f32⟩
  | .hbm, ⟨18, _⟩ => ⟨S4x32x512x512, .f32⟩
  | .hbm, ⟨19, _⟩ => ⟨S_, .f32⟩
  | .hbm, ⟨20, _⟩ => ⟨S_, .f32⟩
  | .hbm, ⟨21, _⟩ => ⟨S4x32x513x513, .f32⟩
  | .hbm, ⟨22, _⟩ => ⟨S4x32x512x512, .f32⟩
  | .hbm, ⟨23, _⟩ => ⟨S4x32x512x512, .f32⟩
  | .hbm, ⟨24, _⟩ => ⟨S_, .f32⟩
  | .hbm, ⟨25, _⟩ => ⟨S_, .f32⟩
  | .hbm, ⟨26, _⟩ => ⟨S4x32x512x512, .f32⟩
  | .hbm, ⟨27, _⟩ => ⟨S_, .f32⟩
  | .hbm, ⟨28, _⟩ => ⟨S_, .f32⟩
  | .hbm, ⟨29, _⟩ => ⟨S4x32x513x513, .f32⟩
  | .hbm, ⟨30, _⟩ => ⟨S4x32x512x512, .f32⟩
  | .hbm, ⟨31, _⟩ => ⟨S4x32x512x512, .f32⟩
  | .hbm, ⟨32, _⟩ => ⟨S_, .f32⟩
  | .hbm, ⟨33, _⟩ => ⟨S_, .f32⟩
  | .hbm, ⟨34, _⟩ => ⟨S4x32x513x512, .f32⟩
  | .hbm, ⟨35, _⟩ => ⟨S4x32x512x512, .f32⟩
  | .hbm, ⟨36, _⟩ => ⟨S4x32x512x512, .f32⟩
  | .hbm, ⟨37, _⟩ => ⟨S_, .f32⟩
  | .hbm, ⟨38, _⟩ => ⟨S_, .f32⟩
  | .hbm, ⟨39, _⟩ => ⟨S4x32x512x513, .f32⟩
  | .hbm, ⟨40, _⟩ => ⟨S4x32x512x512, .f32⟩
  | .hbm, ⟨41, _⟩ => ⟨S4x32x512x512, .f32⟩
  | .hbm, ⟨42, _⟩ => ⟨S_, .f32⟩
  | .hbm, ⟨43, _⟩ => ⟨S_, .f32⟩
  | .hbm, ⟨44, _⟩ => ⟨S4x32x513x513, .f32⟩
  | .hbm, ⟨45, _⟩ => ⟨S4x32x512x512, .f32⟩
  | .hbm, ⟨46, _⟩ => ⟨S4x32x512x512, .f32⟩
  | .hbm, ⟨47, _⟩ => ⟨S1x4x32x512x512, .f32⟩
  | .hbm, ⟨48, _⟩ => ⟨S1x4x32x512x512, .f32⟩
  | .hbm, ⟨49, _⟩ => ⟨S2x4x32x512x512, .f32⟩
  | _, _ => ⟨S4x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_call2_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_call3_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_call4_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call5_v0 : Ref sig .tc := ⟨.hbm, 25, rfl⟩
abbrev main_v12 : Ref sig .tc := ⟨.hbm, 26, rfl⟩
abbrev main_cst_5 : Ref sig .tc := ⟨.hbm, 27, rfl⟩
abbrev main_call6_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_call7_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_call8_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_call9_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]

class Facts₀ : Prop where
  pads_S4x32x512x512_S4x32x512x512_000_000_000_000 : S4x32x512x512.Pads (![0, 0, 0, 0] : Fin 4 → Nat) ![0, 0, 0, 0] ![0, 0, 0, 0] S4x32x512x512
  h_S_ : 0 < S_.numel
  pads_S4x32x512x512_S4x32x513x512_000_000_010_000 : S4x32x512x512.Pads (![0, 0, 0, 0] : Fin 4 → Nat) ![0, 0, 1, 0] ![0, 0, 0, 0] S4x32x513x512
  slices_S4x32x513x512_S4x32x512x512_0_0_1_0 : S4x32x513x512.Slices ![0, 0, 1, 0] S4x32x512x512
  pads_S4x32x512x512_S4x32x512x513_000_000_000_010 : S4x32x512x512.Pads (![0, 0, 0, 0] : Fin 4 → Nat) ![0, 0, 0, 1] ![0, 0, 0, 0] S4x32x512x513
  slices_S4x32x512x513_S4x32x512x512_0_0_0_1 : S4x32x512x513.Slices ![0, 0, 0, 1] S4x32x512x512
  pads_S4x32x512x512_S4x32x513x513_000_000_010_010 : S4x32x512x512.Pads (![0, 0, 0, 0] : Fin 4 → Nat) ![0, 0, 1, 1] ![0, 0, 0, 0] S4x32x513x513
  slices_S4x32x513x513_S4x32x512x512_0_0_1_1 : S4x32x513x513.Slices ![0, 0, 1, 1] S4x32x512x512
  bcast_S4x32x512x512_S1x4x32x512x512_1_2_3_4 : S4x32x512x512.BroadcastsInDim S1x4x32x512x512 (![1, 2, 3, 4] : Fin 4 → Fin S1x4x32x512x512.rank)
  concatenates_S1x4x32x512x512_S1x4x32x512x512_S2x4x32x512x512_d0 : Shape.Concatenates [S1x4x32x512x512, S1x4x32x512x512] S2x4x32x512x512 0

variable [Facts₀]

class Facts : Prop extends Facts₀ where

variable [Facts]
-- ==== Proof.Lattice.lean ====
/-
  Max-pooling on the quincunx lattice, on ONE 512 × 512 image pair, over the extended reals.

  A lattice tensor is two interleaved cosets; in lattice coordinates the stencil's five offsets
  (0,0), (1,1), (2,0), (0,2), (2,2) land, for a point of coset 0, on its own coset at (0,0), (+1,0), (0,+1),
  (+1,+1) and on coset 1 at (0,0); for a point of coset 1, on its own coset at the same four places and on
  coset 0 at (+1,+1). A neighbour that falls off the lower or the right edge contributes the fill value `z`
  (the programs' −∞, which is never evaluated here: only that both sides use the same `z`).

  Nothing below needs the inputs finite: the two programs differ only in the order and grouping of the maxima,
  and `max` on a linear order is commutative and associative.
-/
import Idealize.ShloMosaic.PureOps.Ideal
import Mathlib.Order.MinMax

noncomputable section

namespace Cert.Lattice

/-- One 512 × 512 image. -/
abbrev Img (α : Type) := Fin 512 → Fin 512 → α

/-- The fill value both programs use where a neighbour falls off the edge: the f32 word of −∞ as an extended real. It
    is never evaluated: only that both sides use the same value matters. -/
abbrev fill : EReal := (Idealize.ShloMosaic.FloatOps.ofBits (F := Idealize.ShloMosaic.Ideal) .f32 0xFF800000#32 : Idealize.ShloMosaic.Ideal .f32)

variable {α : Type}

/-- The image one row down: entry (h, w) is entry (h + 1, w), the fill value in the last row. -/
def shiftH (z : α) (y : Img α) : Img α := fun h w =>
  if hh : h.val + 1 < 512 then y ⟨h.val + 1, hh⟩ w else z

/-- The image one column right: entry (h, w) is entry (h, w + 1), the fill value in the last column. -/
def shiftW (z : α) (y : Img α) : Img α := fun h w =>
  if hw : w.val + 1 < 512 then y h ⟨w.val + 1, hw⟩ else z

/-- The image one row down and one column right, the fill value in the last row and the last column. -/
def shiftHW (z : α) (y : Img α) : Img α := fun h w =>
  if hh : h.val + 1 < 512 ∧ w.val + 1 < 512 then y ⟨h.val + 1, hh.1⟩ ⟨w.val + 1, hh.2⟩ else z

/-- Shifting right, then down, is the diagonal shift: off either edge both give the fill value. -/
theorem shiftH_shiftW (z : α) (y : Img α) : shiftH z (shiftW z y) = shiftHW z y := by
  funext h w
  unfold shiftH shiftW shiftHW
  by_cases hh : h.val + 1 < 512
  · by_cases hw : w.val + 1 < 512
    · rw [dif_pos hh, dif_pos hw, dif_pos ⟨hh, hw⟩]
    · rw [dif_pos hh, dif_neg hw, dif_neg (fun c => hw c.2)]
  · rw [dif_neg hh, dif_neg (fun c => hh c.1)]

/-- The pooled value at a point of coset 0: the maximum over the point itself, the coset-1 point at the same
    place, and the three coset-0 neighbours below, right and diagonal — folded in the stencil's order. -/
def pool0 (z : EReal) (a b : Img EReal) : Img EReal := fun h w =>
  max (max (max (max (a h w) (b h w)) (shiftH z a h w)) (shiftW z a h w)) (shiftHW z a h w)

/-- The pooled value at a point of coset 1: the maximum over the point itself, the coset-0 point diagonally
    next to it, and the three coset-1 neighbours below, right and diagonal — folded in the stencil's order. -/
def pool1 (z : EReal) (a b : Img EReal) : Img EReal := fun h w =>
  max (max (max (max (b h w) (shiftHW z a h w)) (shiftH z b h w)) (shiftW z b h w)) (shiftHW z b h w)

/-- Five values' maximum folded as a tree of pairs, then with the fifth, is the same maximum folded left to right
    with the fifth taken second. -/
theorem max_tree_eq (x s t d y : EReal) :
    max (max (max x s) (max t d)) y = max (max (max (max x y) s) t) d := by
  simp only [max_assoc, max_comm, max_left_comm]

end Cert.Lattice

end
-- ==== Proof.Shifts.lean ====
/-
  The two spellings of "the image moved by one row or one column, the fill value where the source falls off the
  edge", each read at an index.

  On the vector unit: a rotation by 511 of an axis of extent 512 brings entry i + 1 (around the end) to entry i,
  and a select under the mask "coordinate < 511" replaces the one wrapped entry by the fill value.
  On the host: a pad of one fill entry at the high end of an axis followed by the slice that starts at 1 on that
  axis reads entry i + 1 where it exists and the padding otherwise.
-/
import proofs.«147606_j16853451669851_1_alg».proof.Proof.Lattice
import Idealize.ShloMosaic.Lib.ValueIdx
import Idealize.ShloMosaic.Lib.Pipeline.Value
import Idealize.ShloMosaic.Lib.KernelVsHost
import Idealize.ShloMosaic.Lib.StableHlo.Predicate

noncomputable section

namespace Cert.Lattice

open Idealize.ShloMosaic Idealize.ShloMosaic.ValueIdx Idealize.ShloMosaic.StableHlo.Predicate

variable {α : Type}

/-! ## A stack of images as a rank-3 vector: the masked rotations -/

/-- A stack of `n` images. -/
abbrev Stack (n : Nat) : Shape := ⟨3, ![n, 512, 512]⟩

/-- Image `p` of a stack. -/
def img3 {n : Nat} (x : (Stack n).Idx → α) (p : Fin n) : Img α := fun h w => x (ix3 p h w)

/-- The mask "coordinate < 511" as a word compare, at a coordinate below 512. -/
theorem lt511_iff (k : Fin 512) : IntOp.cmpi .slt (BitVec.ofNat 32 k.val) 511#32 = 1#1 ↔ k.val + 1 < 512 := by
  have hk : k.val < 512 := k.isLt
  have e1 : (BitVec.ofNat 32 k.val).toNat = k.val := by rw [BitVec.toNat_ofNat]; omega
  rw [slt_iff_toNat (by rw [e1]; omega) (by decide), e1]
  show k.val < 511 ↔ _
  omega

/-- Rotating the row axis by 511 and masking the last row: the stack one row down. -/
theorem maskedRotH_apply {n : Nat} (x : (Stack n).Idx → α) (z : α)
    (hr : (Stack n).Rotates 1 none) (hi : (Stack n).Iotas .tc 32 [1]) (p : Fin n) (h w : Fin 512) :
    select (cmpi .slt (iota .tc (Stack n) 32 [1] hi) (broadcast (Stack n) 511#32))
        (dynamicRotate 1 511#32 none x hr) (broadcast (Stack n) z) (ix3 p h w)
      = shiftH z (img3 x p) h w := by
  rw [select_apply]
  have hc : cmpi .slt (iota .tc (Stack n) 32 [1] hi) (broadcast (Stack n) 511#32) (ix3 p h w)
      = IntOp.cmpi .slt (BitVec.ofNat 32 h.val) 511#32 := by
    show IntOp.cmpi .slt (iota .tc (Stack n) 32 [1] hi (ix3 p h w)) (broadcast (Stack n) 511#32 (ix3 p h w)) = _
    rw [iota_single_apply, broadcast_apply]
    rfl
  rw [hc]
  unfold shiftH
  by_cases hh : h.val + 1 < 512
  · rw [dif_pos hh, (lt511_iff h).mpr hh, select_one]
    refine dynamicRotate_apply 1 511#32 x hr (ix3 p h w) (ix3 p ⟨h.val + 1, hh⟩ w) (fun b => ?_)
    match b with
    | ⟨0, _⟩ => rfl
    | ⟨1, _⟩ =>
      show h.val + 1 = if (1 : Fin 3) = 1 then (h.val + 512 - 511 % 512) % 512 else h.val
      rw [if_pos rfl]; omega
    | ⟨2, _⟩ => rfl
  · have hne : ¬ IntOp.cmpi .slt (BitVec.ofNat 32 h.val) 511#32 = 1#1 := fun c => hh ((lt511_iff h).mp c)
    rw [dif_neg hh, eq_zero_of_ne_one hne, select_zero, broadcast_apply]

/-- Rotating the column axis by 511 and masking the last column: the stack one column right. -/
theorem maskedRotW_apply {n : Nat} (x : (Stack n).Idx → α) (z : α)
    (hr : (Stack n).Rotates 2 none) (hi : (Stack n).Iotas .tc 32 [2]) (p : Fin n) (h w : Fin 512) :
    select (cmpi .slt (iota .tc (Stack n) 32 [2] hi) (broadcast (Stack n) 511#32))
        (dynamicRotate 2 511#32 none x hr) (broadcast (Stack n) z) (ix3 p h w)
      = shiftW z (img3 x p) h w := by
  rw [select_apply]
  have hc : cmpi .slt (iota .tc (Stack n) 32 [2] hi) (broadcast (Stack n) 511#32) (ix3 p h w)
      = IntOp.cmpi .slt (BitVec.ofNat 32 w.val) 511#32 := by
    show IntOp.cmpi .slt (iota .tc (Stack n) 32 [2] hi (ix3 p h w)) (broadcast (Stack n) 511#32 (ix3 p h w)) = _
    rw [iota_single_apply, broadcast_apply]
    rfl
  rw [hc]
  unfold shiftW
  by_cases hw : w.val + 1 < 512
  · rw [dif_pos hw, (lt511_iff w).mpr hw, select_one]
    refine dynamicRotate_apply 2 511#32 x hr (ix3 p h w) (ix3 p h ⟨w.val + 1, hw⟩) (fun b => ?_)
    match b with
    | ⟨0, _⟩ => rfl
    | ⟨1, _⟩ => rfl
    | ⟨2, _⟩ =>
      show w.val + 1 = if (2 : Fin 3) = 2 then (w.val + 512 - 511 % 512) % 512 else w.val
      rw [if_pos rfl]; omega
  · have hne : ¬ IntOp.cmpi .slt (BitVec.ofNat 32 w.val) 511#32 = 1#1 := fun c => hw ((lt511_iff w).mp c)
    rw [dif_neg hw, eq_zero_of_ne_one hne, select_zero, broadcast_apply]

/-! ## A batch of images as a rank-4 array: one fill entry padded at the high end, then the slice from 1 -/

/-- The batch of 4 × 32 images, and the same with one more row, one more column, or both. -/
abbrev Batch : Shape := ⟨4, ![4, 32, 512, 512]⟩
abbrev BatchH : Shape := ⟨4, ![4, 32, 513, 512]⟩
abbrev BatchW : Shape := ⟨4, ![4, 32, 512, 513]⟩
abbrev BatchHW : Shape := ⟨4, ![4, 32, 513, 513]⟩

/-- Image (b, c) of a batch. -/
def img4 (x : Batch.Idx → α) (b : Fin 4) (c : Fin 32) : Img α := fun h w => x (ix4 b c h w)

/-- A pad that adds nothing is the identity. -/
theorem pad_nothing (x : Batch.Idx → α) {u : Shape} (v : u.Idx → α)
    (hp : Batch.Pads ![0, 0, 0, 0] ![0, 0, 0, 0] ![0, 0, 0, 0] Batch) (hu : 0 < u.numel) :
    pad Batch ![0, 0, 0, 0] ![0, 0, 0, 0] ![0, 0, 0, 0] x v hp hu = x := by
  funext j
  refine pad_apply_of_inside _ _ _ x v hp hu j j (fun a => ?_)
  match a with
  | ⟨0, _⟩ => show (j 0).val = 0 + (j 0).val * (0 + 1); omega
  | ⟨1, _⟩ => show (j 1).val = 0 + (j 1).val * (0 + 1); omega
  | ⟨2, _⟩ => show (j 2).val = 0 + (j 2).val * (0 + 1); omega
  | ⟨3, _⟩ => show (j 3).val = 0 + (j 3).val * (0 + 1); omega

/-- One fill row padded below, then rows 1 … 512: the batch one row down. -/
theorem slice_padH_apply (x : Batch.Idx → α) {u : Shape} (v : u.Idx → α)
    (hp : Batch.Pads ![0, 0, 0, 0] ![0, 0, 1, 0] ![0, 0, 0, 0] BatchH) (hu : 0 < u.numel)
    (hs : BatchH.Slices ![0, 0, 1, 0] Batch) (b : Fin 4) (c : Fin 32) (h w : Fin 512) :
    extractStridedSlice Batch ![0, 0, 1, 0] (pad BatchH ![0, 0, 0, 0] ![0, 0, 1, 0] ![0, 0, 0, 0] x v hp hu) hs (ix4 b c h w)
      = shiftH (v (Shape.Idx.first hu)) (img4 x b c) h w := by
  have hlt : h.val < 512 := h.isLt
  have h513 : h.val + 1 < 513 := by omega
  refine (extractStridedSlice_apply ![0, 0, 1, 0] _ hs (ix4 b c h w) (ix4 b c (⟨h.val + 1, h513⟩ : Fin 513) w) (fun a => ?_)).trans ?_
  · match a with
    | ⟨0, _⟩ => show b.val = 0 + b.val; omega
    | ⟨1, _⟩ => show c.val = 0 + c.val; omega
    | ⟨2, _⟩ => show h.val + 1 = 1 + h.val; omega
    | ⟨3, _⟩ => show w.val = 0 + w.val; omega
  unfold shiftH
  by_cases hh : h.val + 1 < 512
  · rw [dif_pos hh]
    refine pad_apply_of_inside _ _ _ x v hp hu _ (ix4 b c ⟨h.val + 1, hh⟩ w) (fun a => ?_)
    match a with
    | ⟨0, _⟩ => show b.val = 0 + b.val * (0 + 1); omega
    | ⟨1, _⟩ => show c.val = 0 + c.val * (0 + 1); omega
    | ⟨2, _⟩ => show h.val + 1 = 0 + (h.val + 1) * (0 + 1); omega
    | ⟨3, _⟩ => show w.val = 0 + w.val * (0 + 1); omega
  · rw [dif_neg hh]
    refine pad_apply_of_not_inside _ _ _ x v hp hu _ (2 : Fin 4) ?_
    show ¬ (0 ≤ h.val + 1 ∧ (h.val + 1 - 0) % (0 + 1) = 0 ∧ (h.val + 1 - 0) / (0 + 1) < 512)
    rintro ⟨-, -, h3⟩
    rw [Nat.sub_zero, Nat.zero_add, Nat.div_one] at h3
    exact hh h3

/-- One fill column padded on the right, then columns 1 … 512: the batch one column right. -/
theorem slice_padW_apply (x : Batch.Idx → α) {u : Shape} (v : u.Idx → α)
    (hp : Batch.Pads ![0, 0, 0, 0] ![0, 0, 0, 1] ![0, 0, 0, 0] BatchW) (hu : 0 < u.numel)
    (hs : BatchW.Slices ![0, 0, 0, 1] Batch) (b : Fin 4) (c : Fin 32) (h w : Fin 512) :
    extractStridedSlice Batch ![0, 0, 0, 1] (pad BatchW ![0, 0, 0, 0] ![0, 0, 0, 1] ![0, 0, 0, 0] x v hp hu) hs (ix4 b c h w)
      = shiftW (v (Shape.Idx.first hu)) (img4 x b c) h w := by
  have wlt : w.val < 512 := w.isLt
  have w513 : w.val + 1 < 513 := by omega
  refine (extractStridedSlice_apply ![0, 0, 0, 1] _ hs (ix4 b c h w) (ix4 b c h (⟨w.val + 1, w513⟩ : Fin 513)) (fun a => ?_)).trans ?_
  · match a with
    | ⟨0, _⟩ => show b.val = 0 + b.val; omega
    | ⟨1, _⟩ => show c.val = 0 + c.val; omega
    | ⟨2, _⟩ => show h.val = 0 + h.val; omega
    | ⟨3, _⟩ => show w.val + 1 = 1 + w.val; omega
  unfold shiftW
  by_cases hw : w.val + 1 < 512
  · rw [dif_pos hw]
    refine pad_apply_of_inside _ _ _ x v hp hu _ (ix4 b c h ⟨w.val + 1, hw⟩) (fun a => ?_)
    match a with
    | ⟨0, _⟩ => show b.val = 0 + b.val * (0 + 1); omega
    | ⟨1, _⟩ => show c.val = 0 + c.val * (0 + 1); omega
    | ⟨2, _⟩ => show h.val = 0 + h.val * (0 + 1); omega
    | ⟨3, _⟩ => show w.val + 1 = 0 + (w.val + 1) * (0 + 1); omega
  · rw [dif_neg hw]
    refine pad_apply_of_not_inside _ _ _ x v hp hu _ (3 : Fin 4) ?_
    show ¬ (0 ≤ w.val + 1 ∧ (w.val + 1 - 0) % (0 + 1) = 0 ∧ (w.val + 1 - 0) / (0 + 1) < 512)
    rintro ⟨-, -, h3⟩
    rw [Nat.sub_zero, Nat.zero_add, Nat.div_one] at h3
    exact hw h3

/-- One fill row and one fill column padded, then rows and columns 1 … 512: the batch moved diagonally. -/
theorem slice_padHW_apply (x : Batch.Idx → α) {u : Shape} (v : u.Idx → α)
    (hp : Batch.Pads ![0, 0, 0, 0] ![0, 0, 1, 1] ![0, 0, 0, 0] BatchHW) (hu : 0 < u.numel)
    (hs : BatchHW.Slices ![0, 0, 1, 1] Batch) (b : Fin 4) (c : Fin 32) (h w : Fin 512) :
    extractStridedSlice Batch ![0, 0, 1, 1] (pad BatchHW ![0, 0, 0, 0] ![0, 0, 1, 1] ![0, 0, 0, 0] x v hp hu) hs (ix4 b c h w)
      = shiftHW (v (Shape.Idx.first hu)) (img4 x b c) h w := by
  have hlt : h.val < 512 := h.isLt
  have wlt : w.val < 512 := w.isLt
  have h513 : h.val + 1 < 513 := by omega
  have w513 : w.val + 1 < 513 := by omega
  refine (extractStridedSlice_apply ![0, 0, 1, 1] _ hs (ix4 b c h w)
    (ix4 b c (⟨h.val + 1, h513⟩ : Fin 513) (⟨w.val + 1, w513⟩ : Fin 513)) (fun a => ?_)).trans ?_
  · match a with
    | ⟨0, _⟩ => show b.val = 0 + b.val; omega
    | ⟨1, _⟩ => show c.val = 0 + c.val; omega
    | ⟨2, _⟩ => show h.val + 1 = 1 + h.val; omega
    | ⟨3, _⟩ => show w.val + 1 = 1 + w.val; omega
  unfold shiftHW
  by_cases hh : h.val + 1 < 512
  · by_cases hw : w.val + 1 < 512
    · rw [dif_pos ⟨hh, hw⟩]
      refine pad_apply_of_inside _ _ _ x v hp hu _ (ix4 b c ⟨h.val + 1, hh⟩ ⟨w.val + 1, hw⟩) (fun a => ?_)
      match a with
      | ⟨0, _⟩ => show b.val = 0 + b.val * (0 + 1); omega
      | ⟨1, _⟩ => show c.val = 0 + c.val * (0 + 1); omega
      | ⟨2, _⟩ => show h.val + 1 = 0 + (h.val + 1) * (0 + 1); omega
      | ⟨3, _⟩ => show w.val + 1 = 0 + (w.val + 1) * (0 + 1); omega
    · rw [dif_neg (fun q => hw q.2)]
      refine pad_apply_of_not_inside _ _ _ x v hp hu _ (3 : Fin 4) ?_
      show ¬ (0 ≤ w.val + 1 ∧ (w.val + 1 - 0) % (0 + 1) = 0 ∧ (w.val + 1 - 0) / (0 + 1) < 512)
      rintro ⟨-, -, h3⟩
      rw [Nat.sub_zero, Nat.zero_add, Nat.div_one] at h3
      exact hw h3
  · rw [dif_neg (fun q => hh q.1)]
    refine pad_apply_of_not_inside _ _ _ x v hp hu _ (2 : Fin 4) ?_
    show ¬ (0 ≤ h.val + 1 ∧ (h.val + 1 - 0) % (0 + 1) = 0 ∧ (h.val + 1 - 0) / (0 + 1) < 512)
    rintro ⟨-, -, h3⟩
    rw [Nat.sub_zero, Nat.zero_add, Nat.div_one] at h3
    exact hh h3

end Cert.Lattice

end
-- ==== Proof.BlockValue.lean ====
/-
  What the kernel body stores, at an entry (p, h, w) of its 2 × 512 × 512 blocks: the pooled values of image p of
  the two input blocks. The body's shifted copies are masked rotations (one row down, one column right, and the
  second applied to the first for the diagonal); its maxima are taken pairwise in a tree.
-/
import proofs.«147606_j16853451669851_1_alg».proof.Proof.Gen.KernelIdeal.Skeleton
import proofs.«147606_j16853451669851_1_alg».proof.Proof.Shifts

noncomputable section

namespace Cert.KernelIdeal.BlockValue

open Idealize.ShloMosaic Idealize.ShloMosaic.ValueIdx Cert.KernelIdeal Cert.KernelIdeal.Gen Cert.Lattice

/-- The body's casts of a loaded block to its own shape change nothing. -/
theorem pay2_eq (v0 : Vec Ideal S2x512x512 .f32) : k0_pay2 v0 = v0 := shapeCast_self _ _
theorem pay3_eq (v2 : Vec Ideal S2x512x512 .f32) : k0_pay3 v2 = v2 := shapeCast_self _ _

/-- The first block one column right. -/
theorem pay4_apply (v0 : Vec Ideal S2x512x512 .f32) (p : Fin 2) (h w : Fin 512) :
    k0_pay4 v0 (ix3 p h w) = shiftW fill (img3 v0 p) h w := by
  unfold k0_pay4
  rw [pay2_eq]
  exact maskedRotW_apply v0 fill _ _ p h w

/-- The first block moved diagonally: the column shift, then one row down. -/
theorem pay5_apply (v0 : Vec Ideal S2x512x512 .f32) (p : Fin 2) (h w : Fin 512) :
    k0_pay5 v0 (ix3 p h w) = shiftHW fill (img3 v0 p) h w := by
  unfold k0_pay5
  refine (maskedRotH_apply (k0_pay4 v0) fill _ _ p h w).trans ?_
  rw [← shiftH_shiftW]
  exact congrArg (fun y => shiftH fill y h w) (funext fun h' => funext fun w' => pay4_apply v0 p h' w')

/-- The second block one row down. -/
theorem pay7_apply (v2 : Vec Ideal S2x512x512 .f32) (p : Fin 2) (h w : Fin 512) :
    k0_pay7 v2 (ix3 p h w) = shiftH fill (img3 v2 p) h w := by
  unfold k0_pay7
  rw [pay3_eq]
  exact maskedRotH_apply v2 fill _ _ p h w

/-- The second block one column right: its rotation, masked. -/
theorem colShift2_apply (v2 : Vec Ideal S2x512x512 .f32) (p : Fin 2) (h w : Fin 512) :
    select (cmpi .slt (iota .tc S2x512x512 32 [2] iota_S2x512x512_d2_w32) (broadcast S2x512x512 511#32))
        (k0_pay8 v2) (broadcast S2x512x512 fill) (ix3 p h w)
      = shiftW fill (img3 v2 p) h w := by
  unfold k0_pay8
  rw [pay3_eq]
  exact maskedRotW_apply v2 fill _ _ p h w

/-- THE FIRST STORE: the pooled value of coset 0. -/
theorem pay6_apply (v0 v2 : Vec Ideal S2x512x512 .f32) (p : Fin 2) (h w : Fin 512) :
    k0_pay6 v0 v2 (ix3 p h w) = pool0 fill (img3 v0 p) (img3 v2 p) h w := by
  unfold pool0
  rw [← max_tree_eq]
  unfold k0_pay6
  refine congrArg₂ max (congrArg₂ max (congrArg₂ max ?_ ?_) (congrArg₂ max ?_ ?_)) ?_
  · exact congrFun (pay2_eq v0) _
  · rw [pay2_eq]; exact maskedRotH_apply v0 fill _ _ p h w
  · exact pay4_apply v0 p h w
  · exact pay5_apply v0 p h w
  · exact congrFun (pay3_eq v2) _

/-- THE SECOND STORE: the pooled value of coset 1. -/
theorem pay1_apply (v0 v2 : Vec Ideal S2x512x512 .f32) (p : Fin 2) (h w : Fin 512) :
    k0_pay1 (k0_pay3 v2) (k0_pay5 v0) (k0_pay7 v2) (k0_pay8 v2) (iota .tc S2x512x512 32 [2] iota_S2x512x512_d2_w32) 511#32 (ix3 p h w)
      = pool1 fill (img3 v0 p) (img3 v2 p) h w := by
  unfold pool1
  rw [← max_tree_eq]
  unfold k0_pay1
  refine congrArg₂ max (congrArg₂ max (congrArg₂ max ?_ ?_) (congrArg₂ max ?_ ?_)) ?_
  · exact congrFun (pay3_eq v2) _
  · exact pay7_apply v2 p h w
  · exact colShift2_apply v2 p h w
  · refine (maskedRotH_apply _ fill _ _ p h w).trans ?_
    rw [← shiftH_shiftW]
    exact congrArg (fun y => shiftH fill y h w) (funext fun h' => funext fun w' => colShift2_apply v2 p h' w')
  · exact pay5_apply v0 p h w

end Cert.KernelIdeal.BlockValue

end
-- ==== Proof.Pooled.lean ====
/-
  The result as one function of the two argument arrays.

  `pooled0` / `pooled1`: the pooled cosets over the batch [4, 32, 512, 512], image by image.
  `stackPooled0` / `stackPooled1`: the same over the batch viewed as a stack of 128 = 4 · 32 images (the kernel's
  view); reshaping the stack back to the batch gives the pooled batch, because a row-major reshape that keeps the
  two trailing axes sends image 32·b + c of the stack to image (b, c) of the batch.
  `stack2`: the two pooled cosets joined along a new leading axis.
-/
import proofs.«147606_j16853451669851_1_alg».proof.Proof.Shifts

noncomputable section

namespace Cert.Lattice

open Idealize.ShloMosaic Idealize.ShloMosaic.ValueIdx

/-- The pooled coset 0 of a batch. -/
def pooled0 (z : EReal) (c0 c1 : Batch.Idx → EReal) : Batch.Idx → EReal := fun i =>
  pool0 z (img4 c0 (i 0) (i 1)) (img4 c1 (i 0) (i 1)) (i 2) (i 3)

/-- The pooled coset 1 of a batch. -/
def pooled1 (z : EReal) (c0 c1 : Batch.Idx → EReal) : Batch.Idx → EReal := fun i =>
  pool1 z (img4 c0 (i 0) (i 1)) (img4 c1 (i 0) (i 1)) (i 2) (i 3)

/-- The pooled coset 0 of a stack of 128 images. -/
def stackPooled0 (z : EReal) (a0 a1 : (Stack 128).Idx → EReal) : (Stack 128).Idx → EReal := fun i =>
  pool0 z (img3 a0 (i 0)) (img3 a1 (i 0)) (i 1) (i 2)

/-- The pooled coset 1 of a stack of 128 images. -/
def stackPooled1 (z : EReal) (a0 a1 : (Stack 128).Idx → EReal) : (Stack 128).Idx → EReal := fun i =>
  pool1 z (img3 a0 (i 0)) (img3 a1 (i 0)) (i 1) (i 2)

/-- Image 32·b + c of the batch viewed as a stack is image (b, c) of the batch. -/
theorem img3_shapeCast (x : Batch.Idx → EReal) (h1 : Batch.ShapeCasts (Stack 128)) (b : Fin 4) (c : Fin 32)
    (hn : 32 * b.val + c.val < 128) :
    img3 (shapeCast (Stack 128) x h1) ⟨32 * b.val + c.val, hn⟩ = img4 x b c := by
  funext h w
  refine shapeCast_apply x h1 (ix3 ⟨32 * b.val + c.val, hn⟩ h w) (ix4 b c h w) ?_
  rw [Shape.rowMajor_val_four, Shape.rowMajor_val_three]
  show ((b.val * 32 + c.val) * 512 + h.val) * 512 + w.val = ((32 * b.val + c.val) * 512 + h.val) * 512 + w.val
  omega

/-- The pooled stack, reshaped to the batch, is the pooled batch: coset 0. -/
theorem shapeCast_stackPooled0 (z : EReal) (c0 c1 : Batch.Idx → EReal)
    (h1 : Batch.ShapeCasts (Stack 128)) (h2 : (Stack 128).ShapeCasts Batch) :
    shapeCast Batch (stackPooled0 z (shapeCast (Stack 128) c0 h1) (shapeCast (Stack 128) c1 h1)) h2 = pooled0 z c0 c1 := by
  funext i
  obtain ⟨b, c, h, w, rfl⟩ : ∃ (b : Fin 4) (c : Fin 32) (h w : Fin 512), i = ix4 b c h w := ⟨i 0, i 1, i 2, i 3, eq_ix4 i⟩
  have hn : 32 * b.val + c.val < 128 := by have := b.isLt; have := c.isLt; omega
  refine (shapeCast_apply _ h2 (ix4 b c h w) (ix3 ⟨32 * b.val + c.val, hn⟩ h w) ?_).trans ?_
  · rw [Shape.rowMajor_val_four, Shape.rowMajor_val_three]
    show ((32 * b.val + c.val) * 512 + h.val) * 512 + w.val = ((b.val * 32 + c.val) * 512 + h.val) * 512 + w.val
    omega
  · show pool0 z (img3 (shapeCast (Stack 128) c0 h1) ⟨32 * b.val + c.val, hn⟩)
        (img3 (shapeCast (Stack 128) c1 h1) ⟨32 * b.val + c.val, hn⟩) h w = pool0 z (img4 c0 b c) (img4 c1 b c) h w
    rw [img3_shapeCast c0 h1 b c hn, img3_shapeCast c1 h1 b c hn]

/-- The pooled stack, reshaped to the batch, is the pooled batch: coset 1. -/
theorem shapeCast_stackPooled1 (z : EReal) (c0 c1 : Batch.Idx → EReal)
    (h1 : Batch.ShapeCasts (Stack 128)) (h2 : (Stack 128).ShapeCasts Batch) :
    shapeCast Batch (stackPooled1 z (shapeCast (Stack 128) c0 h1) (shapeCast (Stack 128) c1 h1)) h2 = pooled1 z c0 c1 := by
  funext i
  obtain ⟨b, c, h, w, rfl⟩ : ∃ (b : Fin 4) (c : Fin 32) (h w : Fin 512), i = ix4 b c h w := ⟨i 0, i 1, i 2, i 3, eq_ix4 i⟩
  have hn : 32 * b.val + c.val < 128 := by have := b.isLt; have := c.isLt; omega
  refine (shapeCast_apply _ h2 (ix4 b c h w) (ix3 ⟨32 * b.val + c.val, hn⟩ h w) ?_).trans ?_
  · rw [Shape.rowMajor_val_four, Shape.rowMajor_val_three]
    show ((32 * b.val + c.val) * 512 + h.val) * 512 + w.val = ((b.val * 32 + c.val) * 512 + h.val) * 512 + w.val
    omega
  · show pool1 z (img3 (shapeCast (Stack 128) c0 h1) ⟨32 * b.val + c.val, hn⟩)
        (img3 (shapeCast (Stack 128) c1 h1) ⟨32 * b.val + c.val, hn⟩) h w = pool1 z (img4 c0 b c) (img4 c1 b c) h w
    rw [img3_shapeCast c0 h1 b c hn, img3_shapeCast c1 h1 b c hn]

/-! ## The two cosets joined along a new leading axis -/

abbrev One : Shape := ⟨5, ![1, 4, 32, 512, 512]⟩
abbrev Two : Shape := ⟨5, ![2, 4, 32, 512, 512]⟩

/-- Each coset given a leading axis of extent one, the two concatenated along it. -/
def stack2 (hb : Batch.BroadcastsInDim One ![1, 2, 3, 4]) (hc : Shape.Concatenates [One, One] Two 0)
    (a b : Batch.Idx → EReal) : Two.Idx → EReal :=
  concatenate Two 0 [⟨One, broadcastInDim One ![1, 2, 3, 4] hb a⟩, ⟨One, broadcastInDim One ![1, 2, 3, 4] hb b⟩] hc

end Cert.Lattice

end
-- ==== Proof.KernelValue.lean ====
/-
  The kernel program's result array as one function of its two arguments.

  The region runs over the batch viewed as a stack of 128 images, two images per grid point: point t reads images
  2t and 2t + 1 of both stacks and writes the pooled images 2t and 2t + 1 of both results. The 64 points' blocks tile
  the stack, so each result array ends as the pooled stack; the lines after the region reshape both to the batch and
  join them along a new leading axis.
-/
import proofs.«147606_j16853451669851_1_alg».proof.Proof.Gen.KernelIdeal.Frame
import proofs.«147606_j16853451669851_1_alg».proof.Proof.BlockValue
import proofs.«147606_j16853451669851_1_alg».proof.Proof.Pooled
import Idealize.ShloMosaic.Lib.Pipeline.Value
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.Pipeline (Dat)

namespace Cert.KernelIdeal.PoolValue

open Cert.KernelIdeal Cert.KernelIdeal.Gen Cert.KernelIdeal.BlockValue Cert.Lattice

variable (m : (ℓ : Loc nD τ sig) → Buf (Elt Ideal) ℓ) (ρ : Dev nD → PrngReg)

/-! ## The stacks the region reads -/

/-- The two input stacks as the region finds them, and the two input blocks of a point. -/
abbrev arr0 (c : Dev nD) : S128x512x512.Idx → EReal := V m c main_v0
abbrev arr1 (c : Dev nD) : S128x512x512.Idx → EReal := V m c main_v1
abbrev blk0 (c : Dev nD) (t : Fin cfg0.N) : Vec Ideal S2x512x512 .f32 := iblk m c 0 t
abbrev blk1 (c : Dev nD) (t : Fin cfg0.N) : Vec Ideal S2x512x512 .f32 := iblk m c 1 t

/-- The first stack is the first argument reshaped. -/
theorem arr0_eq (c : Dev nD) :
    arr0 m c = shapeCast S128x512x512 (m ((c : Thread nD τ).loc main_arg0)) shapeCasts_S4x32x512x512_S128x512x512 := by
  show StableHlo.after hostOps0 (fun b => m (c, b)) (Proc.devRef .tc main_v0) = _
  after_results
  rfl

/-- The second stack is the second argument reshaped. -/
theorem arr1_eq (c : Dev nD) :
    arr1 m c = shapeCast S128x512x512 (m ((c : Thread nD τ).loc main_arg1)) shapeCasts_S4x32x512x512_S128x512x512 := by
  show StableHlo.after hostOps0 (fun b => m (c, b)) (Proc.devRef .tc main_v1) = _
  after_results
  rfl

/-! ## The index maps -/

/-- Every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- Point t's block of the first stack is its images 2t and 2t + 1. -/
theorem blk0_apply (c : Dev nD) (t : Fin cfg0.N) (p : Fin 2) (h w : Fin 512) (hn : 2 * t.val + p.val < 128) :
    blk0 m c t (ix3 p h w) = arr0 m c (ix3 ⟨2 * t.val + p.val, hn⟩ h w) := by
  obtain ⟨⟨e0, e1, e2⟩, -⟩ := idx_facts t
  unfold blk0 iblk
  rw [View.read_apply]
  show V m c main_v0 _ = V m c main_v0 _
  congr 1
  funext a
  apply Fin.ext
  match a with
  | ⟨0, _⟩ => show win0_0.index t 0 * 2 + 1 * p.val = 2 * t.val + p.val; rw [e0]; omega
  | ⟨1, _⟩ => show win0_0.index t 1 * 512 + 1 * h.val = h.val; rw [e1]; omega
  | ⟨2, _⟩ => show win0_0.index t 2 * 512 + 1 * w.val = w.val; rw [e2]; omega

/-- Point t's block of the second stack is its images 2t and 2t + 1. -/
theorem blk1_apply (c : Dev nD) (t : Fin cfg0.N) (p : Fin 2) (h w : Fin 512) (hn : 2 * t.val + p.val < 128) :
    blk1 m c t (ix3 p h w) = arr1 m c (ix3 ⟨2 * t.val + p.val, hn⟩ h w) := by
  obtain ⟨-, ⟨e0, e1, e2⟩, -⟩ := idx_facts t
  unfold blk1 iblk
  rw [View.read_apply]
  show V m c main_v1 _ = V m c main_v1 _
  congr 1
  funext a
  apply Fin.ext
  match a with
  | ⟨0, _⟩ => show win0_1.index t 0 * 2 + 1 * p.val = 2 * t.val + p.val; rw [e0]; omega
  | ⟨1, _⟩ => show win0_1.index t 1 * 512 + 1 * h.val = h.val; rw [e1]; omega
  | ⟨2, _⟩ => show win0_1.index t 2 * 512 + 1 * w.val = w.val; rw [e2]; omega

/-! ## What a point stores is a block of the pooled stack -/

/-- Blocks that are images 2n, 2n + 1 of two stacks pool to images 2n, 2n + 1 of the pooled stack: coset 0. -/
theorem store0_eq (x0 x1 : Vec Ideal S2x512x512 .f32) (A0 A1 : S128x512x512.Idx → EReal) (n : Nat)
    (hx0 : ∀ (p : Fin 2) (h w : Fin 512) (hn : 2 * n + p.val < 128), x0 (ix3 p h w) = A0 (ix3 ⟨2 * n + p.val, hn⟩ h w))
    (hx1 : ∀ (p : Fin 2) (h w : Fin 512) (hn : 2 * n + p.val < 128), x1 (ix3 p h w) = A1 (ix3 ⟨2 * n + p.val, hn⟩ h w))
    (j : S2x512x512.Idx) (i : S128x512x512.Idx)
    (hi0 : (i 0).val = 2 * n + (j 0).val) (hi1 : (i 1).val = (j 1).val) (hi2 : (i 2).val = (j 2).val) :
    k0_pay6 x0 x1 j = stackPooled0 fill A0 A1 i := by
  obtain ⟨p, h, w, rfl⟩ : ∃ (p : Fin 2) (h w : Fin 512), j = ix3 p h w := ⟨j 0, j 1, j 2, eq_ix3 j⟩
  have hn : 2 * n + p.val < 128 := by have h128 : (i 0).val < 128 := (i 0).isLt; have e : (i 0).val = 2 * n + p.val := hi0; omega
  have hi : i = ix3 ⟨2 * n + p.val, hn⟩ h w := by
    funext a; apply Fin.ext
    match a with
    | ⟨0, _⟩ => exact hi0
    | ⟨1, _⟩ => exact hi1
    | ⟨2, _⟩ => exact hi2
  subst hi
  rw [pay6_apply]
  show pool0 fill (img3 x0 p) (img3 x1 p) h w = pool0 fill (img3 A0 ⟨2 * n + p.val, hn⟩) (img3 A1 ⟨2 * n + p.val, hn⟩) h w
  rw [show img3 x0 p = img3 A0 ⟨2 * n + p.val, hn⟩ from funext fun h' => funext fun w' => hx0 p h' w' hn,
    show img3 x1 p = img3 A1 ⟨2 * n + p.val, hn⟩ from funext fun h' => funext fun w' => hx1 p h' w' hn]

/-- The same for coset 1. -/
theorem store1_eq (x0 x1 : Vec Ideal S2x512x512 .f32) (A0 A1 : S128x512x512.Idx → EReal) (n : Nat)
    (hx0 : ∀ (p : Fin 2) (h w : Fin 512) (hn : 2 * n + p.val < 128), x0 (ix3 p h w) = A0 (ix3 ⟨2 * n + p.val, hn⟩ h w))
    (hx1 : ∀ (p : Fin 2) (h w : Fin 512) (hn : 2 * n + p.val < 128), x1 (ix3 p h w) = A1 (ix3 ⟨2 * n + p.val, hn⟩ h w))
    (j : S2x512x512.Idx) (i : S128x512x512.Idx)
    (hi0 : (i 0).val = 2 * n + (j 0).val) (hi1 : (i 1).val = (j 1).val) (hi2 : (i 2).val = (j 2).val) :
    k0_pay1 (k0_pay3 x1) (k0_pay5 x0) (k0_pay7 x1) (k0_pay8 x1) (iota .tc S2x512x512 32 [2] iota_S2x512x512_d2_w32) 511#32 j
      = stackPooled1 fill A0 A1 i := by
  obtain ⟨p, h, w, rfl⟩ : ∃ (p : Fin 2) (h w : Fin 512), j = ix3 p h w := ⟨j 0, j 1, j 2, eq_ix3 j⟩
  have hn : 2 * n + p.val < 128 := by have h128 : (i 0).val < 128 := (i 0).isLt; have e : (i 0).val = 2 * n + p.val := hi0; omega
  have hi : i = ix3 ⟨2 * n + p.val, hn⟩ h w := by
    funext a; apply Fin.ext
    match a with
    | ⟨0, _⟩ => exact hi0
    | ⟨1, _⟩ => exact hi1
    | ⟨2, _⟩ => exact hi2
  subst hi
  rw [pay1_apply]
  show pool1 fill (img3 x0 p) (img3 x1 p) h w = pool1 fill (img3 A0 ⟨2 * n + p.val, hn⟩) (img3 A1 ⟨2 * n + p.val, hn⟩) h w
  rw [show img3 x0 p = img3 A0 ⟨2 * n + p.val, hn⟩ from funext fun h' => funext fun w' => hx0 p h' w' hn,
    show img3 x1 p = img3 A1 ⟨2 * n + p.val, hn⟩ from funext fun h' => funext fun w' => hx1 p h' w' hn]

theorem hz : (![0, 0, 0] : Fin 3 → Nat) = fun _ => 0 := funext fun a => by fin_cases a <;> rfl

/-- WHAT POINT t WRITES BACK to the first result: block t of the pooled stack. -/
theorem flushed2_eq (c : Dev nD) (t : Fin cfg0.N) :
    (dats m 0 c).flushed 2 t = ((cfg0.win 2).blk t).view.read (Elt Ideal) (stackPooled0 fill (arr0 m c) (arr1 m c)) := by
  show (cfg0.win 2).cut (grid0.coords t) ((dats m 0 c).after 2 t) = _
  rw [after0_2]
  unfold out0_2
  rw [View.canon_unit_zero hz]
  simp only [View.ld_unit_zero (S := S2x512x512) hz]
  obtain ⟨-, -, ⟨e0, e1, e2⟩, -⟩ := idx_facts t
  funext j
  refine store0_eq (blk0 m c t) (blk1 m c t) (arr0 m c) (arr1 m c) t.val
    (fun p h w hn => blk0_apply m c t p h w hn) (fun p h w hn => blk1_apply m c t p h w hn) j
    (((cfg0.win 2).blk t).view.emb j) ?_ ?_ ?_
  · show win0_2.index t 0 * 2 + 1 * (j 0).val = 2 * t.val + (j 0).val; rw [e0]; omega
  · show win0_2.index t 1 * 512 + 1 * (j 1).val = (j 1).val; rw [e1]; omega
  · show win0_2.index t 2 * 512 + 1 * (j 2).val = (j 2).val; rw [e2]; omega

/-- WHAT POINT t WRITES BACK to the second result: block t of the pooled stack. -/
theorem flushed3_eq (c : Dev nD) (t : Fin cfg0.N) :
    (dats m 0 c).flushed 3 t = ((cfg0.win 3).blk t).view.read (Elt Ideal) (stackPooled1 fill (arr0 m c) (arr1 m c)) := by
  show (cfg0.win 3).cut (grid0.coords t) ((dats m 0 c).after 3 t) = _
  rw [after0_3]
  unfold out0_3
  rw [View.canon_unit_zero hz]
  simp only [View.ld_unit_zero (S := S2x512x512) hz]
  obtain ⟨-, -, -, ⟨e0, e1, e2⟩⟩ := idx_facts t
  funext j
  refine store1_eq (blk0 m c t) (blk1 m c t) (arr0 m c) (arr1 m c) t.val
    (fun p h w hn => blk0_apply m c t p h w hn) (fun p h w hn => blk1_apply m c t p h w hn) j
    (((cfg0.win 3).blk t).view.emb j) ?_ ?_ ?_
  · show win0_3.index t 0 * 2 + 1 * (j 0).val = 2 * t.val + (j 0).val; rw [e0]; omega
  · show win0_3.index t 1 * 512 + 1 * (j 1).val = (j 1).val; rw [e1]; omega
  · show win0_3.index t 2 * 512 + 1 * (j 2).val = (j 2).val; rw [e2]; omega

/-! ## The 64 blocks tile the stack -/

theorem mem_blk2 (t : Fin cfg0.N) (i : S128x512x512.Idx) :
    i ∈ ((cfg0.win 2).blk t).view.set ↔ ∀ a : Fin 3, win0_2.index t a * S2x512x512.size a ≤ (i a).val
      ∧ (i a).val < win0_2.index t a * S2x512x512.size a + S2x512x512.size a := by
  show i ∈ ((View.whole main_v2_0).slice (win0_2.rect t)).set ↔ _
  rw [View.set_slice_whole, Rect.mem_set_unit]
  exact Iff.rfl

theorem mem_blk3 (t : Fin cfg0.N) (i : S128x512x512.Idx) :
    i ∈ ((cfg0.win 3).blk t).view.set ↔ ∀ a : Fin 3, win0_3.index t a * S2x512x512.size a ≤ (i a).val
      ∧ (i a).val < win0_3.index t a * S2x512x512.size a + S2x512x512.size a := by
  show i ∈ ((View.whole main_v2_1).slice (win0_3.rect t)).set ↔ _
  rw [View.set_slice_whole, Rect.mem_set_unit]
  exact Iff.rfl

/-- Image n of the stack is in the block of point n / 2. -/
theorem cover2 (c : Dev nD) (i : S128x512x512.Idx) :
    ∃ t : Fin cfg0.N, (cfg0.win 2).flush t = true ∧ i ∈ ((cfg0.win 2).blk t).view.set := by
  have h0 : (i 0).val < 128 := (i 0).isLt
  have h1 : (i 1).val < 512 := (i 1).isLt
  have h2 : (i 2).val < 512 := (i 2).isLt
  have hN : (i 0).val / 2 < cfg0.N := by show _ < grid0.N; rw [N_0]; omega
  obtain ⟨-, -, ⟨e0, e1, e2⟩, -⟩ := idx_facts ⟨(i 0).val / 2, hN⟩
  refine ⟨⟨(i 0).val / 2, hN⟩, flush0_2 _, ?_⟩
  rw [mem_blk2]
  intro a
  match a with
  | ⟨0, _⟩ =>
    show win0_2.index ⟨(i 0).val / 2, hN⟩ 0 * 2 ≤ (i 0).val ∧ (i 0).val < win0_2.index ⟨(i 0).val / 2, hN⟩ 0 * 2 + 2
    rw [e0]; show (i 0).val / 2 * 2 ≤ (i 0).val ∧ (i 0).val < (i 0).val / 2 * 2 + 2; omega
  | ⟨1, _⟩ =>
    show win0_2.index ⟨(i 0).val / 2, hN⟩ 1 * 512 ≤ (i 1).val ∧ (i 1).val < win0_2.index ⟨(i 0).val / 2, hN⟩ 1 * 512 + 512
    rw [e1]; omega
  | ⟨2, _⟩ =>
    show win0_2.index ⟨(i 0).val / 2, hN⟩ 2 * 512 ≤ (i 2).val ∧ (i 2).val < win0_2.index ⟨(i 0).val / 2, hN⟩ 2 * 512 + 512
    rw [e2]; omega

theorem cover3 (c : Dev nD) (i : S128x512x512.Idx) :
    ∃ t : Fin cfg0.N, (cfg0.win 3).flush t = true ∧ i ∈ ((cfg0.win 3).blk t).view.set := by
  have h0 : (i 0).val < 128 := (i 0).isLt
  have h1 : (i 1).val < 512 := (i 1).isLt
  have h2 : (i 2).val < 512 := (i 2).isLt
  have hN : (i 0).val / 2 < cfg0.N := by show _ < grid0.N; rw [N_0]; omega
  obtain ⟨-, -, -, ⟨e0, e1, e2⟩⟩ := idx_facts ⟨(i 0).val / 2, hN⟩
  refine ⟨⟨(i 0).val / 2, hN⟩, flush0_3 _, ?_⟩
  rw [mem_blk3]
  intro a
  match a with
  | ⟨0, _⟩ =>
    show win0_3.index ⟨(i 0).val / 2, hN⟩ 0 * 2 ≤ (i 0).val ∧ (i 0).val < win0_3.index ⟨(i 0).val / 2, hN⟩ 0 * 2 + 2
    rw [e0]; show (i 0).val / 2 * 2 ≤ (i 0).val ∧ (i 0).val < (i 0).val / 2 * 2 + 2; omega
  | ⟨1, _⟩ =>
    show win0_3.index ⟨(i 0).val / 2, hN⟩ 1 * 512 ≤ (i 1).val ∧ (i 1).val < win0_3.index ⟨(i 0).val / 2, hN⟩ 1 * 512 + 512
    rw [e1]; omega
  | ⟨2, _⟩ =>
    show win0_3.index ⟨(i 0).val / 2, hN⟩ 2 * 512 ≤ (i 2).val ∧ (i 2).val < win0_3.index ⟨(i 0).val / 2, hN⟩ 2 * 512 + 512
    rw [e2]; omega

/-- The first result array after the region: the pooled stack, coset 0. -/
theorem final2 (c : Dev nD) : (dats m 0 c).arrAt 2 cfg0.N = stackPooled0 fill (arr0 m c) (arr1 m c) :=
  (dats m 0 c).arrAt_eq_of_cover 2 (stackPooled0 fill (arr0 m c) (arr1 m c)) (fun t _ => flushed2_eq m c t) (cover2 c)

/-- The second result array after the region: the pooled stack, coset 1. -/
theorem final3 (c : Dev nD) : (dats m 0 c).arrAt 3 cfg0.N = stackPooled1 fill (arr0 m c) (arr1 m c) :=
  (dats m 0 c).arrAt_eq_of_cover 3 (stackPooled1 fill (arr0 m c) (arr1 m c)) (fun t _ => flushed3_eq m c t) (cover3 c)

/-! ## The lines after the region -/

/-- The program's result: both pooled stacks reshaped to the batch and joined. -/
theorem result_eq (c : Dev nD) :
    Pipeline.afterTail₀ cfgs (dats m) 0 (V0 m) [hostOps1] c main_v7
      = stack2 bcast_S4x32x512x512_S1x4x32x512x512_1_2_3_4 concatenates_S1x4x32x512x512_S1x4x32x512x512_S2x4x32x512x512_d0
          (pooled0 fill (m ((c : Thread nD τ).loc main_arg0)) (m ((c : Thread nD τ).loc main_arg1)))
          (pooled1 fill (m ((c : Thread nD τ).loc main_arg0)) (m ((c : Thread nD τ).loc main_arg1))) := by
  unfold Pipeline.afterTail₀
  show StableHlo.after hostOps1 _ (Proc.devRef .tc main_v7) = _
  after_results
  have e2 : Pipeline.withArrays (cfgs 0).spec c (V0 m c) (fun w => (dats m 0 c).arrAt w (cfgs 0).N) (Proc.devRef .tc main_v2_0)
      = stackPooled0 fill (arr0 m c) (arr1 m c) :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1)
      = stackPooled1 fill (arr0 m c) (arr1 m c) :=
    (Pipeline.withArrays_arr spec0 launch0.win.arr_inj c _ _ 3).trans (final3 m c)
  rw [e2, e3, arr0_eq, arr1_eq]
  unfold stack2
  rw [← shapeCast_stackPooled0 fill _ _ shapeCasts_S4x32x512x512_S128x512x512 shapeCasts_S128x512x512_S4x32x512x512,
    ← shapeCast_stackPooled1 fill _ _ shapeCasts_S4x32x512x512_S128x512x512 shapeCasts_S128x512x512_S4x32x512x512]
  rfl

/-- The run, read: every weakly fair execution ends with the result at the two pooled cosets joined and the
    arguments unchanged. -/
theorem run : θ_run defs (onTc (τ := τ) (main (F := Ideal))) ⟨m, fun _ => 0, ρ⟩ fun r => ∀ c : Dev nD,
      r.2.mem ((c : Thread nD τ).loc main_v7)
        = stack2 bcast_S4x32x512x512_S1x4x32x512x512_1_2_3_4 concatenates_S1x4x32x512x512_S1x4x32x512x512_S2x4x32x512x512_d0
            (pooled0 fill (m ((c : Thread nD τ).loc main_arg0)) (m ((c : Thread nD τ).loc main_arg1)))
            (pooled1 fill (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v7 (Pipeline.mem_restRefs_of main_v7 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.PoolValue

end
-- ==== Proof.RefValue.lean ====
/-
  The reference program's result as the same function of its two arguments.

  The reference pools each coset over the whole batch at once: a neighbour copy is the array padded with one fill
  row, one fill column or both at the high end and sliced from 1 (a pad that adds nothing is the array itself), and the
  five candidates are folded by `max` in the stencil's order — which is the order `pool0` and `pool1` are written in.
-/
import proofs.«147606_j16853451669851_1_alg».proof.Proof.Gen.ReferenceIdeal.Read
import proofs.«147606_j16853451669851_1_alg».proof.Proof.Pooled

noncomputable section

open Idealize.ShloMosaic Idealize.ShloMosaic.ValueIdx

namespace Cert.ReferenceIdeal.PoolValue

open Cert.ReferenceIdeal Cert.ReferenceIdeal.Gen Cert.ReferenceIdeal.Read Cert.Lattice

/-- The reference's pooled coset 0. -/
theorem coset0_eq (c0 c1 : FVec Ideal S4x32x512x512 .f32) : val_main_v11 (F := Ideal) c0 c1 = pooled0 fill c0 c1 := by
  funext i
  obtain ⟨b, c, h, w, rfl⟩ : ∃ (b : Fin 4) (c : Fin 32) (h w : Fin 512), i = ix4 b c h w := ⟨i 0, i 1, i 2, i 3, eq_ix4 i⟩
  show _ = pool0 fill (img4 c0 b c) (img4 c1 b c) h w
  unfold pool0
  refine congrArg₂ max (congrArg₂ max (congrArg₂ max (congrArg₂ max ?_ ?_) ?_) ?_) ?_
  · exact congrFun (pad_nothing c0 _ _ _) _
  · exact congrFun (pad_nothing c1 _ _ _) _
  · exact slice_padH_apply c0 _ _ _ _ b c h w
  · exact slice_padW_apply c0 _ _ _ _ b c h w
  · exact slice_padHW_apply c0 _ _ _ _ b c h w

/-- The reference's pooled coset 1. -/
theorem coset1_eq (c0 c1 : FVec Ideal S4x32x512x512 .f32) : val_main_v24 (F := Ideal) c0 c1 = pooled1 fill c0 c1 := by
  funext i
  obtain ⟨b, c, h, w, rfl⟩ : ∃ (b : Fin 4) (c : Fin 32) (h w : Fin 512), i = ix4 b c h w := ⟨i 0, i 1, i 2, i 3, eq_ix4 i⟩
  show _ = pool1 fill (img4 c0 b c) (img4 c1 b c) h w
  unfold pool1
  refine congrArg₂ max (congrArg₂ max (congrArg₂ max (congrArg₂ max ?_ ?_) ?_) ?_) ?_
  · exact congrFun (pad_nothing c1 _ _ _) _
  · exact slice_padHW_apply c0 _ _ _ _ b c h w
  · exact slice_padH_apply c1 _ _ _ _ b c h w
  · exact slice_padW_apply c1 _ _ _ _ b c h w
  · exact slice_padHW_apply c1 _ _ _ _ b c h w

/-- The reference's result: the two pooled cosets joined along a new leading axis. -/
theorem result_eq (c0 c1 : FVec Ideal S4x32x512x512 .f32) :
    val_main_v27 (F := Ideal) c0 c1
      = stack2 bcast_S4x32x512x512_S1x4x32x512x512_1_2_3_4 concatenates_S1x4x32x512x512_S1x4x32x512x512_S2x4x32x512x512_d0
          (pooled0 fill c0 c1) (pooled1 fill c0 c1) := by
  unfold val_main_v27 val_main_v25 val_main_v26 stack2
  rw [coset0_eq, coset1_eq]

end Cert.ReferenceIdeal.PoolValue

end
-- ==== Proof.lean ====
/-
  The certificate of the quincunx-lattice max-pool kernel against its jnp reference, over the extended reals.

  Both programs compute, for each of the 4 · 32 image pairs (a, b) of the two cosets,
    out0[h, w] = max { a[h, w], b[h, w], a[h+1, w], a[h, w+1], a[h+1, w+1] }
    out1[h, w] = max { b[h, w], a[h+1, w+1], b[h+1, w], b[h, w+1], b[h+1, w+1] }
  with −∞ for a neighbour past the last row or column, and join the two along a new leading axis.
  The kernel walks the batch as a stack of 128 images, two per grid point, makes each neighbour copy by a rotation
  masked at the wrapped entry, and takes the maxima pairwise; the reference pads, slices and folds the maxima left to
  right over the whole batch. The two agree entry by entry because `max` is commutative and associative; the inputs'
  finiteness is never used.

  The three frames: the kernel's two are the generated frame runs; the reference's is its generated run with the
  result dropped. The idealization rewrote nothing, so `preserves` is trivial.
-/
import proofs.«147606_j16853451669851_1_alg».proof.Defs
import proofs.«147606_j16853451669851_1_alg».proof.Proof.Gen.Kernel
import proofs.«147606_j16853451669851_1_alg».proof.Proof.Gen.Kernel.Frame
import proofs.«147606_j16853451669851_1_alg».proof.Proof.Gen.KernelIdeal
import proofs.«147606_j16853451669851_1_alg».proof.Proof.Gen.KernelIdeal.Frame
import proofs.«147606_j16853451669851_1_alg».proof.Proof.Gen.ReferenceIdeal
import proofs.«147606_j16853451669851_1_alg».proof.Proof.Gen.ReferenceIdeal.Run
import proofs.«147606_j16853451669851_1_alg».proof.Proof.Gen.ReferenceIdeal.Read
import proofs.«147606_j16853451669851_1_alg».proof.Proof.Gen.Pre_finite_inputs
import proofs.«147606_j16853451669851_1_alg».proof.Proof.KernelValue
import proofs.«147606_j16853451669851_1_alg».proof.Proof.RefValue
import Idealize.ShloMosaic.Adequacy
import Idealize.ShloMosaic.Init

noncomputable section

namespace Cert.Proof

open Idealize.ShloMosaic Idealize.ShloMosaic.TcCoe Idealize.SL.Sem Cert.Lattice

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the two arguments, both programs end with the two pooled cosets joined: the
    kernel's run read block by block, the reference's read operation by operation, one function of the arguments. -/
theorem algebraic : Cert.algebraic_KernelIdeal_ReferenceIdeal := by
  intro m ρ m' ρ' _ hagree
  refine ⟨_, Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]
  exact Cert.ReferenceIdeal.PoolValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
